-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩

abbrev nBuf : Space → Nat
  | .hbm => 39
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .bf16⟩
  | .hbm, ⟨32, _⟩ => ⟨S100000x128, .bf16⟩
  | .hbm, ⟨33, _⟩ => ⟨S128x128, .f32⟩
  | .hbm, ⟨34, _⟩ => ⟨S128x128, .bf16⟩
  | .hbm, ⟨35, _⟩ => ⟨S128x128, .f32⟩
  | .hbm, ⟨36, _⟩ => ⟨S128x128, .bf16⟩
  | .hbm, ⟨37, _⟩ => ⟨S1x128, .f32⟩
  | .hbm, ⟨38, _⟩ => ⟨S100000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .bf16 = 32 ∨ (Rect.block (s := S100000x128) S4000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v19) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S128x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.HostArrays.lean ====
/-
  The five arrays the kernel's windows stage, as the region finds them.

  Before the region the program converts the features to bf16, computes the neighbour means and converts them, transposes
  each weight matrix and converts it, and reshapes the bias to one row. On the extended reals a change of float format is
  the identity, so the region finds: the features themselves; the neighbour means; each weight matrix transposed; the bias
  as a [1, 128] row.

  The neighbour means are computed by the same operations, in the same order and with the same literals, as in the
  reference (index fix-up of the sources, a gather of feature rows, a scatter-add by destination, a scatter-add of ones
  for the degrees, a maximum with 1, a division): they are named here by the reference's own stage and the chain is never
  opened; the two terms differ only in which program's copy of each shape and dimension record they mention.
-/
import proofs.«130682_j48258252538106_1_alg».proof.Proof.Gen.KernelIdeal.Frame
import proofs.«130682_j48258252538106_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.SageLayer

open Cert.KernelIdeal Cert.KernelIdeal.Gen

variable (m : (ℓ : Loc nD τ sig) → Buf (Elt Ideal) ℓ)

/-- On the extended reals a narrowing change of float format leaves an array as it is. -/
theorem narrow_id {s : Shape} {φ ψ : FTy} (a : FVec Ideal s φ) (h : ψ.bits < φ.bits) :
    (truncf ψ a h : s.Idx → EReal) = a := rfl

/-- The neighbour means of the kernel's arguments: the mean, over the edges into a node, of the source nodes' feature
    rows (zero for a node with no incoming edge), as the reference's stage computes it. -/
@[irreducible] def means (c : Dev nD) : FVec Ideal S100000x128 .f32 :=
  Cert.ReferenceIdeal.Read.val_main_v18 (F := Ideal) (m ((c : Thread nD τ).loc main_arg0)) (m ((c : Thread nD τ).loc main_arg1))
    (m ((c : Thread nD τ).loc main_arg2))

/-- The neighbour means are the reference's stage of the same arguments. The name is kept closed everywhere else, so that
    no comparison of two entries ever opens the gather and the scatter-adds over the 1,600,000 edges. -/
theorem means_def (c : Dev nD) : means m c
    = Cert.ReferenceIdeal.Read.val_main_v18 (F := Ideal) (m ((c : Thread nD τ).loc main_arg0))
        (m ((c : Thread nD τ).loc main_arg1)) (m ((c : Thread nD τ).loc main_arg2)) := by
  unfold means
  rfl

/-- Window 0's array: the features. -/
theorem arr_feat (c : Dev nD) : (V m c main_v19 : S100000x128.Idx → EReal) = m ((c : Thread nD τ).loc main_arg0) := by
  dsimp only [V, hostOps0]
  after_results
  rfl

set_option maxHeartbeats 1000000 in
/-- Window 1's array: the neighbour means. -/
theorem arr_means (c : Dev nD) : (V m c main_v20 : S100000x128.Idx → EReal) = means m c := by
  dsimp only [V, hostOps0]
  after_results_simp
  refine (narrow_id (φ := .f32) (ψ := .bf16) _ bitsLt_bf16_f32).trans ?_
  rw [means_def]
  simp only [Cert.ReferenceIdeal.Read.val_main_v18, Cert.ReferenceIdeal.Read.val_main_v9, Cert.ReferenceIdeal.Read.val_main_v17,
    Cert.ReferenceIdeal.Read.val_main_v7, Cert.ReferenceIdeal.Read.val_main_v8, Cert.ReferenceIdeal.Read.val_main_v6,
    Cert.ReferenceIdeal.Read.val_main_v16, Cert.ReferenceIdeal.Read.val_main_cst, Cert.ReferenceIdeal.Read.val_main_v5,
    Cert.ReferenceIdeal.Read.val_main_v15, Cert.ReferenceIdeal.Read.val_main_v4, Cert.ReferenceIdeal.Read.val_main_v13,
    Cert.ReferenceIdeal.Read.val_main_v14, Cert.ReferenceIdeal.Read.val_main_v1, Cert.ReferenceIdeal.Read.val_main_v3,
    Cert.ReferenceIdeal.Read.val_main_v11, Cert.ReferenceIdeal.Read.val_main_v12, Cert.ReferenceIdeal.Read.val_main_v10,
    Cert.ReferenceIdeal.Read.val_main_cst_3, Cert.ReferenceIdeal.Read.val_main_v0, Cert.ReferenceIdeal.Read.val_main_v2,
    Cert.ReferenceIdeal.Read.val_main_cst_2, Cert.ReferenceIdeal.Read.val_main_cst_1, Cert.ReferenceIdeal.Read.val_main_c,
    Cert.ReferenceIdeal.Read.val_main_c_0]
  rfl

/-- Window 2's array: Wself transposed. -/
theorem arr_wself (c : Dev nD) : (V m c main_v22 : S128x128.Idx → EReal)
    = transpose S128x128 [1, 0] (m ((c : Thread nD τ).loc main_arg3)) transposes_S128x128_S128x128_1_0 := by
  dsimp only [V, hostOps0]
  after_results
  rfl

/-- Window 3's array: Wneigh transposed. -/
theorem arr_wneigh (c : Dev nD) : (V m c main_v24 : S128x128.Idx → EReal)
    = transpose S128x128 [1, 0] (m ((c : Thread nD τ).loc main_arg4)) transposes_S128x128_S128x128_1_0 := by
  dsimp only [V, hostOps0]
  after_results
  rfl

/-- Window 4's array: the bias as one row. -/
theorem arr_bias (c : Dev nD) : (V m c main_v25 : S1x128.Idx → EReal)
    = shapeCast S1x128 (m ((c : Thread nD τ).loc main_arg5)) shapeCasts_S128_S1x128 := by
  dsimp only [V, hostOps0]
  after_results
  rfl

end Cert.SageLayer

end
-- ==== Proof.Blocks.lean ====
/-
  The kernel's input blocks at a grid point, read at an entry.

  The grid has 25 points; point t handles rows 4000·t … 4000·t + 3999. Its block of the features and its block of the
  neighbour means are those rows of the two arrays; the weight matrices and the bias row are fetched whole at every point.
  Read at an entry: row p of the features' (neighbour means') block is row 4000·t + p of the features (neighbour means);
  the first weight window at (k, q) is Wself transposed at (k, q), that is Wself at (q, k), and likewise the second; the
  bias window at (0, q) is the bias at q.

  Each fact is first stated for an arbitrary array read through the window's block (a statement about the block's
  position only), and then applied to the array the region finds there.
-/
import proofs.«130682_j48258252538106_1_alg».proof.Proof.Gen.KernelIdeal.Value
import proofs.«130682_j48258252538106_1_alg».proof.Proof.HostArrays
import Idealize.ShloMosaic.Lib.ValueLayout

noncomputable section

open Idealize.ShloMosaic Idealize.ShloMosaic.TcCoe Idealize.SL.Sem Idealize.ShloMosaic.ValueIdx

namespace Cert.SageLayer

open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- The windows' block indices at point t, decided over the 25 points: the row-blocked windows (features, neighbour
    means, result) are at block (t, 0), the others at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t is row 4000·t + p of a [100000, 128] array. -/
def blockRow (t : Fin cfg0.N) (p : Fin 4000) : Fin 100000 :=
  ⟨4000 * t.val + p.val, by
    have ht : t.val < 25 := lt_of_lt_of_eq t.isLt N_0
    have hp := p.isLt
    omega⟩

/-! ## Any array read through a window's block -/

/-- Through window 0's block at point t, entry (p, k) is the array's entry (4000·t + p, k). -/
theorem rows0 (t : Fin cfg0.N) (f : S100000x128.Idx → EReal) (p : Fin 4000) (k : Fin 128) :
    ((cfg0.win 0).blk t).view.read (Elt Ideal) f (ix2 p k) = f (ix2 (blockRow t p) k) := by
  obtain ⟨e0, e1, -⟩ := block_indices t
  rw [View.read_apply]
  show f _ = f _
  refine congrArg f (funext fun a => Fin.ext ?_)
  match a with
  | ⟨0, _⟩ => show win0_0.index t (0 : Fin 2) * 4000 + 1 * p.val = 4000 * t.val + p.val; rw [e0]; omega
  | ⟨1, _⟩ => show win0_0.index t (1 : Fin 2) * 128 + 1 * k.val = k.val; rw [e1]; omega

/-- The same through window 1's block. -/
theorem rows1 (t : Fin cfg0.N) (f : S100000x128.Idx → EReal) (p : Fin 4000) (k : Fin 128) :
    ((cfg0.win 1).blk t).view.read (Elt Ideal) f (ix2 p k) = f (ix2 (blockRow t p) k) := by
  obtain ⟨-, -, e0, e1, -⟩ := block_indices t
  rw [View.read_apply]
  show f _ = f _
  refine congrArg f (funext fun a => Fin.ext ?_)
  match a with
  | ⟨0, _⟩ => show win0_1.index t (0 : Fin 2) * 4000 + 1 * p.val = 4000 * t.val + p.val; rw [e0]; omega
  | ⟨1, _⟩ => show win0_1.index t (1 : Fin 2) * 128 + 1 * k.val = k.val; rw [e1]; omega

/-- Window 2's block at any point is its whole [128, 128] array. -/
theorem whole2 (t : Fin cfg0.N) (f : S128x128.Idx → EReal) (k q : Fin 128) :
    ((cfg0.win 2).blk t).view.read (Elt Ideal) f (ix2 k q) = f (ix2 k q) := by
  obtain ⟨-, -, -, -, e0, e1, -⟩ := block_indices t
  rw [View.read_apply]
  show f _ = f _
  refine congrArg f (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- Window 3's block at any point is its whole [128, 128] array. -/
theorem whole3 (t : Fin cfg0.N) (f : S128x128.Idx → EReal) (k q : Fin 128) :
    ((cfg0.win 3).blk t).view.read (Elt Ideal) f (ix2 k q) = f (ix2 k q) := by
  obtain ⟨-, -, -, -, -, -, e0, e1, -⟩ := block_indices t
  rw [View.read_apply]
  show f _ = f _
  refine congrArg f (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- Window 4's block at any point is its whole [1, 128] array. -/
theorem whole4 (t : Fin cfg0.N) (f : S1x128.Idx → EReal) (q : Fin 128) :
    ((cfg0.win 4).blk t).view.read (Elt Ideal) f (ix2 (0 : Fin 1) q) = f (ix2 (0 : Fin 1) q) := by
  obtain ⟨-, -, -, -, -, -, -, -, e0, e1, -⟩ := block_indices t
  rw [View.read_apply]
  show f _ = f _
  refine congrArg f (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-! ## The input blocks at a point -/

/-- The features' block at point t: rows 4000·t … of the features. -/
theorem feat_block (c : Dev nD) (t : Fin cfg0.N) (p : Fin 4000) (k : Fin 128) :
    (iblk m c 0 t : S4000x128.Idx → EReal) (ix2 p k) = m ((c : Thread nD τ).loc main_arg0) (ix2 (blockRow t p) k) := by
  have h2 : (V m c (Pipeline.arrRef spec0 0) : S100000x128.Idx → EReal) = m ((c : Thread nD τ).loc main_arg0) := arr_feat m c
  unfold iblk
  exact (rows0 t (V m c (Pipeline.arrRef spec0 0)) p k).trans (congrFun h2 _)

/-- The neighbour means' block at point t: the same rows of the neighbour means. -/
theorem means_block (c : Dev nD) (t : Fin cfg0.N) (p : Fin 4000) (k : Fin 128) :
    (iblk m c 1 t : S4000x128.Idx → EReal) (ix2 p k) = means m c (ix2 (blockRow t p) k) := by
  have h2 : (V m c (Pipeline.arrRef spec0 1) : S100000x128.Idx → EReal) = means m c := arr_means m c
  unfold iblk
  exact (rows1 t (V m c (Pipeline.arrRef spec0 1)) p k).trans (congrFun h2 _)

/-- Wself's window at any point, at (k, q): the matrix at (q, k). -/
theorem wself_block (c : Dev nD) (t : Fin cfg0.N) (k q : Fin 128) :
    (iblk m c 2 t : S128x128.Idx → EReal) (ix2 k q) = m ((c : Thread nD τ).loc main_arg3) (ix2 q k) := by
  have h2 : (V m c (Pipeline.arrRef spec0 2) : S128x128.Idx → EReal)
      = transpose S128x128 [1, 0] (m ((c : Thread nD τ).loc main_arg3)) transposes_S128x128_S128x128_1_0 := arr_wself m c
  unfold iblk
  exact ((whole2 t (V m c (Pipeline.arrRef spec0 2)) k q).trans (congrFun h2 _)).trans (transpose_ix2_apply _ _ k q)

/-- Wneigh's window at any point, at (k, q): the matrix at (q, k). -/
theorem wneigh_block (c : Dev nD) (t : Fin cfg0.N) (k q : Fin 128) :
    (iblk m c 3 t : S128x128.Idx → EReal) (ix2 k q) = m ((c : Thread nD τ).loc main_arg4) (ix2 q k) := by
  have h2 : (V m c (Pipeline.arrRef spec0 3) : S128x128.Idx → EReal)
      = transpose S128x128 [1, 0] (m ((c : Thread nD τ).loc main_arg4)) transposes_S128x128_S128x128_1_0 := arr_wneigh m c
  unfold iblk
  exact ((whole3 t (V m c (Pipeline.arrRef spec0 3)) k q).trans (congrFun h2 _)).trans (transpose_ix2_apply _ _ k q)

/-- The bias reshaped to one row, at (0, q): the bias at q. -/
theorem bias_row (B : S128.Idx → EReal) (q : Fin 128) :
    shapeCast S1x128 B shapeCasts_S128_S1x128 (ix2 (0 : Fin 1) q) = B (ix1 q) := by
  refine shapeCast_apply _ _ _ (ix1 q) ?_
  rw [Shape.rowMajor_val_one, Shape.rowMajor_val_two]
  show q.val = 0 * 128 + q.val
  omega

/-- The bias row's window at any point, at (0, q): the bias at q. -/
theorem bias_block (c : Dev nD) (t : Fin cfg0.N) (q : Fin 128) :
    (iblk m c 4 t : S1x128.Idx → EReal) (ix2 (0 : Fin 1) q) = m ((c : Thread nD τ).loc main_arg5) (ix1 q) := by
  have h2 : (V m c (Pipeline.arrRef spec0 4) : S1x128.Idx → EReal)
      = shapeCast S1x128 (m ((c : Thread nD τ).loc main_arg5)) shapeCasts_S128_S1x128 := arr_bias m c
  unfold iblk
  exact ((whole4 t (V m c (Pipeline.arrRef spec0 4)) q).trans (congrFun h2 _)).trans (bias_row _ q)

end Cert.SageLayer

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.Payload.lean ====
/-
  What the kernel body stores, read at one entry.

  The body loads a block x of 4000 rows of the features and the matching block y of the neighbour means (both [4000, 128]),
  the two weight matrices u, v as the region finds them ([128, 128], already transposed: row k holds input k's weights)
  and the bias row r ([1, 128]); it forms the two matrix products x · u and y · v, each into a zero accumulator, adds them,
  and adds the bias row spread down the 4000 rows. At entry (p, q) that is

      (Σ_k x (p, k) · u (k, q)  +  Σ_k y (p, k) · v (k, q))  +  r (0, q).
-/
import proofs.«130682_j48258252538106_1_alg».proof.Proof.Gen.KernelIdeal.Skeleton
import proofs.«130682_j48258252538106_1_alg».proof.Proof.LibPlainMatmul

noncomputable section

open scoped BigOperators
open Idealize.ShloMosaic Idealize.ShloMosaic.ValueIdx

namespace Cert.SageLayer

open Cert.KernelIdeal Cert.KernelIdeal.Gen

/-- The stored value at entry (p, q): the two products' entries added, then the bias entry. -/
theorem stored_apply (x y : FVec Ideal S4000x128 .bf16) (u v : FVec Ideal S128x128 .bf16) (r : FVec Ideal S1x128 .f32)
    (p : Fin 4000) (q : Fin 128) :
    k0_pay1 (F := Ideal) x u y v r (ix2 p q)
      = ((∑ k : Fin 128, x (ix2 p k) * u (ix2 k q)) + ∑ k : Fin 128, y (ix2 p k) * v (ix2 k q)) + r (ix2 (0 : Fin 1) q) := by
  unfold k0_pay1
  rw [addf_apply, addf_apply, shapeCast_self, shapeCast_self, shapeCast_self, shapeCast_self, shapeCast_self]
  simp only [matmul]
  rw [Cert.Lib.PlainMatmul.apply _ rfl rfl rfl rfl rfl rfl, Cert.Lib.PlainMatmul.apply _ rfl rfl rfl rfl rfl rfl,
    Cert.Lib.PlainMatmul.rowSpread_apply]

end Cert.SageLayer

end
-- ==== Proof.Spec.lean ====
/-
  The layer both programs compute, as one function of five arrays over the extended reals.

  For node features h [100000, 128], neighbour means hn [100000, 128], the two weight matrices Wself, Wneigh [128, 128]
  (stored output-major: row q holds output q's weights) and the bias b [128], entry (p, q) of the result is

      (Σ_k h (p, k) · Wself (q, k)  +  Σ_k hn (p, k) · Wneigh (q, k))  +  b q,

  the two sums added first and the bias last: the grouping both programs use, so no law of the extended reals is needed
  to join them. The neighbour means are an argument here: both programs compute them by the same operations, which are
  never opened.
-/
import Idealize.ShloMosaic.PureOps.Ideal.Laws
import Idealize.ShloMosaic.Lib.ValueIdx

noncomputable section

open scoped BigOperators
open Idealize.ShloMosaic Idealize.ShloMosaic.ValueIdx

namespace Cert.SageLayer

/-- Entry (p, q) of the layer. -/
def layerAt (h hn : FVec Ideal ⟨2, ![100000, 128]⟩ .f32) (ws wn : FVec Ideal ⟨2, ![128, 128]⟩ .f32)
    (b : FVec Ideal ⟨1, ![128]⟩ .f32) (p : Fin 100000) (q : Fin 128) : EReal :=
  ((∑ k : Fin 128, h (ix2 p k) * ws (ix2 q k)) + ∑ k : Fin 128, hn (ix2 p k) * wn (ix2 q k)) + b (ix1 q)

/-- The layer as an array. -/
def layer (h hn : FVec Ideal ⟨2, ![100000, 128]⟩ .f32) (ws wn : FVec Ideal ⟨2, ![128, 128]⟩ .f32)
    (b : FVec Ideal ⟨1, ![128]⟩ .f32) : FVec Ideal ⟨2, ![100000, 128]⟩ .f32 :=
  fun i => layerAt h hn ws wn b (i 0) (i 1)

theorem layer_apply (h hn : FVec Ideal ⟨2, ![100000, 128]⟩ .f32) (ws wn : FVec Ideal ⟨2, ![128, 128]⟩ .f32)
    (b : FVec Ideal ⟨1, ![128]⟩ .f32) (p : Fin 100000) (q : Fin 128) :
    layer h hn ws wn b (ix2 p q) = layerAt h hn ws wn b p q := rfl

end Cert.SageLayer

end
-- ==== Proof.KernelValue.lean ====
/-
  The kernel's result array is the layer.

  The grid has 25 points; point t handles rows 4000·t … 4000·t + 3999. Its block of the features and its block of the
  neighbour means are those rows of the two arrays; the weight matrices and the bias row are fetched whole at every point.
  So what point t stores at entry (p, q) of its output block is the layer's entry (4000·t + p, q): the stored value is two
  products' entries plus a bias entry (the payload at an entry), the left operands' rows are rows 4000·t + p of the
  features and of the neighbour means, the right operands are the transposed weight matrices at (k, q), that is the
  matrices at (q, k), and the bias row at (0, q) is the bias at q. The 25 output blocks tile the [100000, 128] result
  (row i lies in block i / 4000), so after the run the result array is the layer.
-/
import proofs.«130682_j48258252538106_1_alg».proof.Proof.Gen.KernelIdeal.Value
import proofs.«130682_j48258252538106_1_alg».proof.Proof.Blocks
import proofs.«130682_j48258252538106_1_alg».proof.Proof.Payload
import proofs.«130682_j48258252538106_1_alg».proof.Proof.Spec
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.SageLayer

open Cert.KernelIdeal Cert.KernelIdeal.Gen

variable (m : (ℓ : Loc nD τ sig) → Buf (Elt Ideal) ℓ) (ρ : Dev nD → PrngReg)

/-! ## One entry of a block -/

/-- If the loaded blocks x, y are rows `row p` of arrays H, HN, the loaded matrices u, v are WS, WN transposed, and the
    loaded row r is B, then the stored value at (p, q) is the layer of H, HN, WS, WN, B at (row p, q). -/
theorem block_entry (H HN : FVec Ideal S100000x128 .f32) (WS WN : FVec Ideal S128x128 .f32) (B : FVec Ideal S128 .f32)
    (x y : FVec Ideal S4000x128 .bf16) (u v : FVec Ideal S128x128 .bf16) (r : FVec Ideal S1x128 .f32)
    (row : Fin 4000 → Fin 100000)
    (hx : ∀ p k, x (ix2 p k) = H (ix2 (row p) k)) (hy : ∀ p k, y (ix2 p k) = HN (ix2 (row p) k))
    (hu : ∀ k q, u (ix2 k q) = WS (ix2 q k)) (hv : ∀ k q, v (ix2 k q) = WN (ix2 q k))
    (hr : ∀ q, r (ix2 (0 : Fin 1) q) = B (ix1 q)) (p : Fin 4000) (q : Fin 128) :
    k0_pay1 (F := Ideal) x u y v r (ix2 p q) = layer H HN WS WN B (ix2 (row p) q) := by
  rw [stored_apply, layer_apply]
  unfold layerAt
  simp only [hx, hy, hu, hv, hr]

/-! ## What a point writes back, and the array after the run -/

/-- The result the kernel leaves: the layer of the arguments and their neighbour means. -/
abbrev result (c : Dev nD) : FVec Ideal S100000x128 .f32 :=
  layer (m ((c : Thread nD τ).loc main_arg0)) (means m c) (m ((c : Thread nD τ).loc main_arg3))
    (m ((c : Thread nD τ).loc main_arg4)) (m ((c : Thread nD τ).loc main_arg5))

/-- What point t writes back is block t of the layer. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero zero_offsets]
  simp only [View.ld_unit_zero (S := S4000x128) zero_offsets, View.ld_unit_zero (S := S128x128) zero_offsets,
    View.ld_unit_zero (S := S1x128) zero_offsets]
  obtain ⟨-, -, -, -, -, -, -, -, -, -, e0, e1⟩ := block_indices t
  funext j
  show k0_pay1 (F := Ideal) (iblk m c 0 t) (iblk m c 2 t) (iblk m c 1 t) (iblk m c 3 t) (iblk m c 4 t) j
    = result m c (((cfg0.win 5).blk t).view.emb j)
  have hj : j = ix2 (j 0) (j 1) := eq_ix2 j
  have he : ((cfg0.win 5).blk t).view.emb j = ix2 (blockRow t (j 0)) (j 1) := funext fun a => Fin.ext (by
    match a with
    | ⟨0, _⟩ => show win0_5.index t (0 : Fin 2) * 4000 + 1 * (j 0).val = 4000 * t.val + (j 0).val; rw [e0]; omega
    | ⟨1, _⟩ => show win0_5.index t (1 : Fin 2) * 128 + 1 * (j 1).val = (j 1).val; rw [e1]; omega)
  refine (congrArg _ hj).trans (Eq.trans ?_ (congrArg _ he.symm))
  exact block_entry (m ((c : Thread nD τ).loc main_arg0)) (means m c) (m ((c : Thread nD τ).loc main_arg3))
    (m ((c : Thread nD τ).loc main_arg4)) (m ((c : Thread nD τ).loc main_arg5))
    (iblk m c 0 t) (iblk m c 1 t) (iblk m c 2 t) (iblk m c 3 t) (iblk m c 4 t) (blockRow t)
    (feat_block m c t) (means_block m c t) (wself_block m c t) (wneigh_block m c t) (bias_block m c t) (j 0) (j 1)

/-- An index of the result is in point t's block iff each coordinate is in the block's range on its axis. -/
theorem mem_block (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v26).slice (win0_5.rect t)).set ↔ _
  rw [View.set_slice_whole, Rect.mem_set_unit]
  exact Iff.rfl

/-- Every index of the result lies in some point's block: row i is in block i / 4000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, -, -, -, -, -, -, e0, e1⟩ := block_indices ⟨(i 0).val / 4000, ht⟩
  refine ⟨⟨(i 0).val / 4000, ht⟩, flush0_5 _, ?_⟩
  rw [mem_block]
  intro a
  match a with
  | ⟨0, _⟩ =>
    show win0_5.index ⟨(i 0).val / 4000, ht⟩ (0 : Fin 2) * 4000 ≤ (i 0).val
      ∧ (i 0).val < win0_5.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_5.index ⟨(i 0).val / 4000, ht⟩ (1 : Fin 2) * 128 ≤ (i 1).val
      ∧ (i 1).val < win0_5.index ⟨(i 0).val / 4000, ht⟩ (1 : Fin 2) * 128 + 128
    rw [e1]
    omega

/-- The result array after the run is the layer. -/
theorem final (c : Dev nD) : (dats m 0 c).arrAt 5 cfg0.N = result m c :=
  (dats m 0 c).arrAt_eq_of_cover 5 (result m c) (fun t _ => flushed_eq m c t) covered

/-- The kernel's run, read: the result array ends at the layer of the arguments and their neighbour means, the arguments
    unchanged. -/
theorem kernel_run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Cert.KernelIdeal.Value.run_blocks m ρ)

end Cert.SageLayer

end
-- ==== Proof.RefValue.lean ====
/-
  The reference's result is the layer.

  Read at entry (p, q), the reference's last operation is the sum of two matrix products' entries plus a bias entry. The
  first product contracts row p of the features with row q of Wself (the reference transposes the weight matrix before the
  product, so column q of the transpose is row q of the matrix), the second contracts row p of the reference's own neighbour
  means with row q of Wneigh, and the bias, spread first to one row and then down all rows, contributes b q. That is the
  layer of the arguments and the neighbour means, with the same grouping; the neighbour means stay a closed term.
-/
import proofs.«130682_j48258252538106_1_alg».proof.Proof.Gen.ReferenceIdeal.Read
import proofs.«130682_j48258252538106_1_alg».proof.Proof.Spec

noncomputable section

open scoped BigOperators
open Idealize.ShloMosaic Idealize.ShloMosaic.ValueIdx

namespace Cert.SageLayer

open Cert.ReferenceIdeal Cert.ReferenceIdeal.Read

/-- The left operand of either product is read at (p, k). -/
theorem ref_lhs_self (p : Fin 100000) (q k : Fin 128) : lidx_main_v20 (ix2 p q) k = ix2 p k :=
  funext fun a => Fin.ext (by match a with | ⟨0, _⟩ => rfl | ⟨1, _⟩ => rfl)

theorem ref_lhs_neigh (p : Fin 100000) (q k : Fin 128) : lidx_main_v22 (ix2 p q) k = ix2 p k :=
  funext fun a => Fin.ext (by match a with | ⟨0, _⟩ => rfl | ⟨1, _⟩ => rfl)

/-- The right operand is the transposed weight matrix at (k, q): the matrix itself at (q, k). -/
theorem ref_rhs_self (p : Fin 100000) (q k : Fin 128) : idx_main_v19 (ridx_main_v20 (ix2 p q) k) = ix2 q k :=
  funext fun a => Fin.ext (by match a with | ⟨0, _⟩ => rfl | ⟨1, _⟩ => rfl)

theorem ref_rhs_neigh (p : Fin 100000) (q k : Fin 128) : idx_main_v21 (ridx_main_v22 (ix2 p q) k) = ix2 q k :=
  funext fun a => Fin.ext (by match a with | ⟨0, _⟩ => rfl | ⟨1, _⟩ => rfl)

/-- The bias spread to [1, 128] and then to [100000, 128] is read at q. -/
theorem ref_bias (p : Fin 100000) (q : Fin 128) : idx_main_v24 (idx_main_v25 (ix2 p q)) = ix1 q :=
  funext fun a => Fin.ext (by match a with | ⟨0, _⟩ => rfl)

/-- The reference's result array is the layer of its arguments and of its own neighbour means. -/
theorem reference_eq (x0 : FVec Ideal S100000x128 .f32) (x1 x2 : (⟨S1600000, .i32⟩ : BufTy).Contents (Elt Ideal))
    (x3 x4 : FVec Ideal S128x128 .f32) (x5 : FVec Ideal S128 .f32) :
    val_main_v26 (F := Ideal) x0 x1 x2 x3 x4 x5 = layer x0 (val_main_v18 (F := Ideal) x0 x1 x2) x3 x4 x5 := by
  funext i
  obtain ⟨p, q, rfl⟩ : ∃ (p : Fin 100000) (q : Fin 128), i = ix2 p q := ⟨i 0, i 1, eq_ix2 i⟩
  rw [val_main_v26_apply, val_main_v23_apply, val_main_v20_apply, val_main_v22_apply, val_main_v25_apply, val_main_v24_apply,
    layer_apply]
  simp only [val_main_v19_apply, val_main_v21_apply, ref_lhs_self, ref_lhs_neigh, ref_rhs_self, ref_rhs_neigh, ref_bias,
    Ideal.addf_def]
  rfl

end Cert.SageLayer

end
-- ==== Proof.lean ====
/-
  A GraphSAGE layer with the mean aggregator, kernel against reference, over the extended reals.

  Both programs first compute, by the same operations, the neighbour means hn of the node features h: the rows of h
  gathered by the edges' sources, added up by the edges' destinations, and divided by the in-degree (at least 1). The
  reference then returns h · Wselfᵀ + hn · Wneighᵀ + b as two whole matrix products. The kernel converts h, hn and the two
  transposed weight matrices to bf16 (the identity on the extended reals) and computes the same expression block by block:
  each of 25 grid points takes 4000 rows of h and of hn, forms the two products into zero accumulators, adds them, adds the
  bias row, and writes its 4000 rows of the result.

  Entry (p, q) of either result is (Σ_k h (p, k) · Wself (q, k) + Σ_k hn (p, k) · Wneigh (q, k)) + b q, with the same
  grouping of the three terms, so the two results are one function of the arguments and no law of the extended reals beyond
  the reading of a matrix product as a sum is used; the precondition (finite inputs) is never opened.

  The three frames are the generated frame runs (the reference's is its generated run with the result dropped); the ideal
  pass rewrote nothing, so the kernel's idealization is its own text and that conjunct is trivial.
-/
import proofs.«130682_j48258252538106_1_alg».proof.Defs
import proofs.«130682_j48258252538106_1_alg».proof.Proof.Gen.Kernel
import proofs.«130682_j48258252538106_1_alg».proof.Proof.Gen.Kernel.Skeleton
import proofs.«130682_j48258252538106_1_alg».proof.Proof.Gen.Kernel.Launch
import proofs.«130682_j48258252538106_1_alg».proof.Proof.Gen.Kernel.Points
import proofs.«130682_j48258252538106_1_alg».proof.Proof.Gen.Kernel.Frame
import proofs.«130682_j48258252538106_1_alg».proof.Proof.Gen.KernelIdeal
import proofs.«130682_j48258252538106_1_alg».proof.Proof.Gen.KernelIdeal.Skeleton
import proofs.«130682_j48258252538106_1_alg».proof.Proof.Gen.KernelIdeal.Launch
import proofs.«130682_j48258252538106_1_alg».proof.Proof.Gen.KernelIdeal.Points
import proofs.«130682_j48258252538106_1_alg».proof.Proof.Gen.KernelIdeal.Frame
import proofs.«130682_j48258252538106_1_alg».proof.Proof.Gen.ReferenceIdeal
import proofs.«130682_j48258252538106_1_alg».proof.Proof.Gen.Pre_finite_inputs
import proofs.«130682_j48258252538106_1_alg».proof.Proof.Gen.KernelIdeal.Value
import proofs.«130682_j48258252538106_1_alg».proof.Proof.Gen.ReferenceIdeal.Run
import proofs.«130682_j48258252538106_1_alg».proof.Proof.Gen.ReferenceIdeal.Read
import proofs.«130682_j48258252538106_1_alg».proof.Proof.KernelValue
import proofs.«130682_j48258252538106_1_alg».proof.Proof.RefValue
import Idealize.ShloMosaic.Adequacy
import Idealize.ShloMosaic.Init

noncomputable section

namespace Cert.Proof

open Idealize.ShloMosaic Idealize.ShloMosaic.TcCoe Idealize.SL.Sem

/-- Run from memories that agree on the arguments, the kernel ends with its result array at the layer of its arguments
    and their neighbour means, and the reference with its result at the layer of its own arguments and their neighbour
    means: the same array once the arguments are identified. -/
theorem algebraic : Cert.algebraic_KernelIdeal_ReferenceIdeal := by
  intro m ρ m' ρ' _ hagree
  refine ⟨fun c => Cert.SageLayer.result m c, Cert.SageLayer.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v26_eq, Cert.SageLayer.reference_eq, a0, a1, a2, a3, a4, a5]
  dsimp only [Cert.SageLayer.result]
  rw [Cert.SageLayer.means_def]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
